-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128 .f32) (main_arg6 : FVec F S128 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x640000 32) (main_arg2 : FVec F S128x128 .f32) (main_arg3 : FVec F S128 .f32) (main_arg4 : FVec F S1 .f32) (main_arg5 : FVec F S128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg5 main_arg6 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1 : Shape := ⟨1, ![1]⟩
abbrev S4000x128 : Shape := ⟨2, ![4000, 128]⟩
abbrev S1x640000 : Shape := ⟨2, ![1, 640000]⟩
abbrev S640000 : Shape := ⟨1, ![640000]⟩
abbrev S100000 : Shape := ⟨1, ![100000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩
abbrev S4000 : Shape := ⟨1, ![4000]⟩
abbrev S4000x1 : Shape := ⟨2, ![4000, 1]⟩

abbrev nBuf : Space → Nat
  | .hbm => 69
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S128, .f32⟩
  | .hbm, ⟨6, _⟩ => ⟨S128, .f32⟩
  | .hbm, ⟨7, _⟩ => ⟨S100000x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S100000, .i32⟩
  | .hbm, ⟨13, _⟩ => ⟨S740000, .i32⟩
  | .hbm, ⟨14, _⟩ => ⟨S740000, .i32⟩
  | .hbm, ⟨15, _⟩ => ⟨S_, .f32⟩
  | .hbm, ⟨16, _⟩ => ⟨S740000, .f32⟩
  | .hbm, ⟨17, _⟩ => ⟨S_, .f32⟩
  | .hbm, ⟨18, _⟩ => ⟨S100000, .f32⟩
  | .hbm, ⟨19, _⟩ => ⟨S740000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S740000, .i32⟩
  | .hbm, ⟨34, _⟩ => ⟨S740000, .i1⟩
  | .hbm, ⟨35, _⟩ => ⟨S_, .i32⟩
  | .hbm, ⟨36, _⟩ => ⟨S740000, .i32⟩
  | .hbm, ⟨37, _⟩ => ⟨S740000, .i32⟩
  | .hbm, ⟨38, _⟩ => ⟨S740000, .i32⟩
  | .hbm, ⟨39, _⟩ => ⟨S740000x1, .i32⟩
  | .hbm, ⟨40, _⟩ => ⟨S740000, .f32⟩
  | .hbm, ⟨41, _⟩ => ⟨S740000, .f32⟩
  | .hbm, ⟨42, _⟩ => ⟨S_, .i32⟩
  | .hbm, ⟨43, _⟩ => ⟨S740000, .i32⟩
  | .hbm, ⟨44, _⟩ => ⟨S740000, .i1⟩
  | .hbm, ⟨45, _⟩ => ⟨S_, .i32⟩
  | .hbm, ⟨46, _⟩ => ⟨S740000, .i32⟩
  | .hbm, ⟨47, _⟩ => ⟨S740000, .i32⟩
  | .hbm, ⟨48, _⟩ => ⟨S740000, .i32⟩
  | .hbm, ⟨49, _⟩ => ⟨S740000x1, .i32⟩
  | .hbm, ⟨50, _⟩ => ⟨S740000, .f32⟩
  | .hbm, ⟨51, _⟩ => ⟨S740000, .f32⟩
  | .hbm, ⟨52, _⟩ => ⟨S740000x1, .f32⟩
  | .hbm, ⟨53, _⟩ => ⟨S_, .i32⟩
  | .hbm, ⟨54, _⟩ => ⟨S740000, .i32⟩
  | .hbm, ⟨55, _⟩ => ⟨S740000, .i1⟩
  | .hbm, ⟨56, _⟩ => ⟨S_, .i32⟩
  | .hbm, ⟨57, _⟩ => ⟨S740000, .i32⟩
  | .hbm, ⟨58, _⟩ => ⟨S740000, .i32⟩
  | .hbm, ⟨59, _⟩ => ⟨S740000, .i32⟩
  | .hbm, ⟨60, _⟩ => ⟨S740000x1, .i32⟩
  | .hbm, ⟨61, _⟩ => ⟨S740000x128, .f32⟩
  | .hbm, ⟨62, _⟩ => ⟨S740000x128, .f32⟩
  | .hbm, ⟨63, _⟩ => ⟨S740000x128, .f32⟩
  | .hbm, ⟨64, _⟩ => ⟨S_, .f32⟩
  | .hbm, ⟨65, _⟩ => ⟨S100000x128, .f32⟩
  | .hbm, ⟨66, _⟩ => ⟨S740000x1, .i32⟩
  | .hbm, ⟨67, _⟩ => ⟨S100000x128, .f32⟩
  | .hbm, ⟨68, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S128, .f32⟩
  | .local _ .vmem, ⟨8, _⟩ => ⟨S1, .f32⟩
  | .local _ .vmem, ⟨9, _⟩ => ⟨S128, .f32⟩
  | .local _ .vmem, ⟨10, _⟩ => ⟨S128, .f32⟩
  | .local _ .vmem, ⟨11, _⟩ => ⟨S4000x128, .f32⟩
  | .local _ .vmem, ⟨12, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S100000_S740000_d0 : Shape.Concatenates [S640000, S100000] S740000 0
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  shapeCasts_S4000x128_S4000x128 : S4000x128.ShapeCasts S4000x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S1_S1_0 : ∀ a, (![0] : Fin 1 → Nat) a + S1.size a ≤ S1.size a
  h_S1 : 0 < S1.numel
  inpos_S1_p0 : ∀ a, (![0] : Fin 1 → Nat) a < S1.size a
  reduces_S4000x128_S4000 : S4000x128.Reduces [1] S4000
  shapeCasts_S4000_S4000x1 : S4000.ShapeCasts S4000x1
  broadcasts_S4000x1_S4000x128 : S4000x1.Broadcasts S4000x128
  dot_S4000x128_S128x128_S4000x128_1_0_0_1_n_n_wf : DotDims.WF S4000x128 S128x128 S4000x128 [1] [0] [0] [1] [] []
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1.size a ≤ S1.size a
  hwx1_2 : ∀ i : grid1.Coords, EltTy.bits .f32 = 32 ∨ (Rect.block (s := S1) S1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1 : Shape := ⟨1, ![1]⟩
abbrev S1x640000 : Shape := ⟨2, ![1, 640000]⟩
abbrev S640000 : Shape := ⟨1, ![640000]⟩
abbrev S100000 : Shape := ⟨1, ![100000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S128, .f32⟩
  | .hbm, ⟨6, _⟩ => ⟨S128, .f32⟩
  | .hbm, ⟨7, _⟩ => ⟨S100000x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S100000, .i32⟩
  | .hbm, ⟨13, _⟩ => ⟨S740000, .i32⟩
  | .hbm, ⟨14, _⟩ => ⟨S740000, .i32⟩
  | .hbm, ⟨15, _⟩ => ⟨S_, .f32⟩
  | .hbm, ⟨16, _⟩ => ⟨S740000, .f32⟩
  | .hbm, ⟨17, _⟩ => ⟨S_, .f32⟩
  | .hbm, ⟨18, _⟩ => ⟨S100000, .f32⟩
  | .hbm, ⟨19, _⟩ => ⟨S740000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S740000, .i32⟩
  | .hbm, ⟨34, _⟩ => ⟨S740000, .i1⟩
  | .hbm, ⟨35, _⟩ => ⟨S_, .i32⟩
  | .hbm, ⟨36, _⟩ => ⟨S740000, .i32⟩
  | .hbm, ⟨37, _⟩ => ⟨S740000, .i32⟩
  | .hbm, ⟨38, _⟩ => ⟨S740000, .i32⟩
  | .hbm, ⟨39, _⟩ => ⟨S740000x1, .i32⟩
  | .hbm, ⟨40, _⟩ => ⟨S740000, .f32⟩
  | .hbm, ⟨41, _⟩ => ⟨S740000, .f32⟩
  | .hbm, ⟨42, _⟩ => ⟨S_, .i32⟩
  | .hbm, ⟨43, _⟩ => ⟨S740000, .i32⟩
  | .hbm, ⟨44, _⟩ => ⟨S740000, .i1⟩
  | .hbm, ⟨45, _⟩ => ⟨S_, .i32⟩
  | .hbm, ⟨46, _⟩ => ⟨S740000, .i32⟩
  | .hbm, ⟨47, _⟩ => ⟨S740000, .i32⟩
  | .hbm, ⟨48, _⟩ => ⟨S740000, .i32⟩
  | .hbm, ⟨49, _⟩ => ⟨S740000x1, .i32⟩
  | .hbm, ⟨50, _⟩ => ⟨S740000, .f32⟩
  | .hbm, ⟨51, _⟩ => ⟨S740000, .f32⟩
  | .hbm, ⟨52, _⟩ => ⟨S740000x1, .f32⟩
  | .hbm, ⟨53, _⟩ => ⟨S_, .i32⟩
  | .hbm, ⟨54, _⟩ => ⟨S740000, .i32⟩
  | .hbm, ⟨55, _⟩ => ⟨S740000, .i1⟩
  | .hbm, ⟨56, _⟩ => ⟨S_, .i32⟩
  | .hbm, ⟨57, _⟩ => ⟨S740000, .i32⟩
  | .hbm, ⟨58, _⟩ => ⟨S740000, .i32⟩
  | .hbm, ⟨59, _⟩ => ⟨S740000, .i32⟩
  | .hbm, ⟨60, _⟩ => ⟨S740000x1, .i32⟩
  | .hbm, ⟨61, _⟩ => ⟨S740000x128, .f32⟩
  | .hbm, ⟨62, _⟩ => ⟨S740000x128, .f32⟩
  | .hbm, ⟨63, _⟩ => ⟨S740000x128, .f32⟩
  | .hbm, ⟨64, _⟩ => ⟨S_, .f32⟩
  | .hbm, ⟨65, _⟩ => ⟨S100000x128, .f32⟩
  | .hbm, ⟨66, _⟩ => ⟨S740000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .i1⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000, .f32⟩
  | .hbm, ⟨80, _⟩ => ⟨S100000x1, .f32⟩
  | .hbm, ⟨81, _⟩ => ⟨S_, .f32⟩
  | .hbm, ⟨82, _⟩ => ⟨S100000x1, .f32⟩
  | .hbm, ⟨83, _⟩ => ⟨S100000x1, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S100000, .f32⟩
  | .hbm, ⟨89, _⟩ => ⟨S100000x1, .f32⟩
  | .hbm, ⟨90, _⟩ => ⟨S_, .f32⟩
  | .hbm, ⟨91, _⟩ => ⟨S100000x1, .f32⟩
  | .hbm, ⟨92, _⟩ => ⟨S100000x1, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S100000x1, .f32⟩
  | .hbm, ⟨97, _⟩ => ⟨S100000x1, .f32⟩
  | .hbm, ⟨98, _⟩ => ⟨S100000x1, .f32⟩
  | .hbm, ⟨99, _⟩ => ⟨S100000x128, .f32⟩
  | .hbm, ⟨100, _⟩ => ⟨S100000x128, .f32⟩
  | .hbm, ⟨101, _⟩ => ⟨S1x128, .f32⟩
  | .hbm, ⟨102, _⟩ => ⟨S100000x128, .f32⟩
  | .hbm, ⟨103, _⟩ => ⟨S100000x128, .f32⟩
  | .hbm, ⟨104, _⟩ => ⟨S1x128, .f32⟩
  | .hbm, ⟨105, _⟩ => ⟨S100000x128, .f32⟩
  | .hbm, ⟨106, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_15 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S100000_S740000_d0 : Shape.Concatenates [S640000, S100000] S740000 0
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S1_S_ : S1.ShapeCasts S_
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

class Facts : Prop extends Facts₀ where

variable [Facts]
-- ==== Proof.Spec.lean ====
/-
  The mathematics of one GCN layer with a PReLU and a layer normalisation, as functions of the argument arrays,
  index by index over the extended reals.

  * `lin h W` is the matrix product: entry (r, q) is the sum over k of h[r, k] · W[k, q].
  * the aggregation over the edges (degrees, symmetric normalisation, gather, scale, scatter-add) is the same
    text in both programs; it is carried as one function of the product and of the edge list, and never opened.
  * `epi a b α γ β` is the row-wise tail: add the bias, apply the PReLU with slope α, subtract the row's mean,
    divide by the root of the row's mean square deviation plus ε, scale by γ and shift by β. Entry (r, q) reads row r of
    `a` only, which is why a block of rows of the result is the same function of the block of rows of `a`.
-/
import Idealize.ShloMosaic.PureOps.Ideal
import Idealize.ShloMosaic.Lib.ValueIdx

noncomputable section

namespace Gcn

open Idealize.ShloMosaic Idealize.ShloMosaic.ValueIdx

/-- node features, 100000 nodes by 128 channels -/
abbrev Nodes : Shape := ⟨2, ![100000, 128]⟩
/-- the weight matrix, 128 by 128 -/
abbrev Wt : Shape := ⟨2, ![128, 128]⟩
/-- a per-channel vector -/
abbrev Chan : Shape := ⟨1, ![128]⟩
/-- the one PReLU slope -/
abbrev Single : Shape := ⟨1, ![1]⟩

/-- The matrix product h · W: entry (r, q) is ∑ₖ h[r, k] · W[k, q]. -/
def lin (h : Nodes.Idx → EReal) (W : Wt.Idx → EReal) : Nodes.Idx → EReal :=
  fun i => ∑ k : Fin 128, h (ix2 (i 0) k) * W (ix2 k (i 1))

/-- Bias, then PReLU: x + b where that is at least zero, α · (x + b) elsewhere. -/
def act (row b : Fin 128 → EReal) (α : EReal) (j : Fin 128) : EReal :=
  Scalar.select (Ideal.cmp .oge (row j + b j) (Ideal.ofBits .f32 0x00000000#32)) (row j + b j) (α * (row j + b j))

/-- The mean of 128 numbers: their sum divided by 128. -/
def mean (p : Fin 128 → EReal) : EReal :=
  Ideal.div (∑ j : Fin 128, p j) (Ideal.ofBits .f32 0x43000000#32)

/-- Layer normalisation of one row at channel q: (p q − mean p) · rsqrt(mean of the squared deviations + ε) · γ q + β q. -/
def normRow (p γ β : Fin 128 → EReal) (q : Fin 128) : EReal :=
  (p q - mean p) * Ideal.rsqrt (mean (fun j => (p j - mean p) * (p j - mean p)) + Ideal.ofBits .f32 0x3727C5AC#32) * γ q + β q

/-- The tail of the layer on the aggregated array `a`: entry (r, q) is the normalised, activated row r at channel q. -/
def epi (a : Nodes.Idx → EReal) (b : Chan.Idx → EReal) (α : Single.Idx → EReal) (γ β : Chan.Idx → EReal) : Nodes.Idx → EReal :=
  fun i => normRow (act (fun j => a (ix2 (i 0) j)) (fun j => b (ix1 j)) (α (ix1 0))) (fun j => γ (ix1 j)) (fun j => β (ix1 j)) (i 1)

end Gcn

end
-- ==== Proof.LinValue.lean ====
/- The first region's value: after its 25 points the product array holds h · W, entry by entry. -/
import proofs.«133593_j79422535238247_1_alg».proof.Proof.Gen.KernelIdeal.Frame
import proofs.«133593_j79422535238247_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LinValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The block product at an index -/

/-- The left operand's index at output index `i` and contraction index `q`: its row is the output's row. -/
theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- Its column is the contraction index. -/
theorem lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row is the contraction index. -/
theorem rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- Its column is the output's column. -/
theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The body's payload at row `p`, column `q` of the block: the rounding casts are the identity on ideal values and
    the accumulator is zero, so it is the sum over `k` of the left block at `(p, k)` times the right block at `(k, q)`. -/
theorem pay_apply (x0 : Vec Ideal S4000x128 .f32) (x1 : Vec Ideal S128x128 .f32) (p : Fin 4000) (q : Fin 128) :
    k0_pay1 x0 x1 (ix2 p q) = ∑ k : Fin 128, x0 (ix2 p k) * x1 (ix2 k q) := by
  unfold k0_pay1
  refine (Ideal.matmul_constant_zero_apply dot_S4000x128_S128x128_S4000x128_1_0_0_1_n_n none _ _ (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_row _ _
    | ⟨1, _⟩ => exact (lhs_col _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_row _ _).trans hk
    | ⟨1, _⟩ => exact rhs_col _ _)
  rw [truncf_apply, truncf_apply, el, er]

/-! ## From the blocks to the array -/

/-- A block product whose left block is rows `r p` of `h` and whose right block is `W` is those rows of `h · W`. -/
theorem pay_lin (h : Gcn.Nodes.Idx → EReal) (W : Gcn.Wt.Idx → EReal) (x0 : Vec Ideal S4000x128 .f32) (x1 : Vec Ideal S128x128 .f32)
    (r : Fin 4000 → Fin 100000)
    (h0 : ∀ (p : Fin 4000) (k : Fin 128), x0 (ix2 p k) = h (ix2 (r p) k))
    (h1 : ∀ (k q : Fin 128), x1 (ix2 k q) = W (ix2 k q)) (p : Fin 4000) (q : Fin 128) :
    k0_pay1 x0 x1 (ix2 p q) = Gcn.lin h W (ix2 (r p) q) := by
  rw [pay_apply]
  show _ = ∑ k : Fin 128, h (ix2 (r p) k) * W (ix2 k q)
  exact Finset.sum_congr rfl fun k _ => by rw [h0, h1]

/-- The zero offsets of a whole-block access, as the constant function. -/
theorem zeros2 : (![0, 0] : Fin 2 → Nat) = fun _ => 0 := funext fun a => by fin_cases a <;> rfl

/-- The windows' block indices, decided once over the 25 points: the output window writes block `t` of rows at point `t`,
    the left operand's window moves with it, and the right operand's block is always the whole matrix. -/
theorem idx_facts : ∀ t : Fin cfg0.N, win0_2.index t (0 : Fin 2) = t.val
    ∧ win0_2.index t (1 : Fin 2) = 0
    ∧ win0_0.index t (0 : Fin 2) = t.val
    ∧ win0_0.index t (1 : Fin 2) = 0
    ∧ win0_1.index t (0 : Fin 2) = 0
    ∧ win0_1.index t (1 : Fin 2) = 0 :=
  (by decide +kernel : ∀ t : Fin grid0.N, _)

/-- WHAT POINT `t` WRITES BACK is block `t` of `h · W`, the arrays as the region finds them. -/
theorem flushed_eq (c : Dev nD) (t : Fin cfg0.N) :
    (dat0 (F := Ideal) V c).flushed 2 t = ((cfg0.win 2).blk t).view.read (Elt Ideal) (Gcn.lin (V c main_arg0) (V c main_arg2)) := by
  show (cfg0.win 2).cut (grid0.coords t) ((dat0 V c).after 2 t) = _
  rw [after0_2]
  unfold out0_2
  rw [View.canon_unit_zero zeros2]
  simp only [View.ld_unit_zero (S := S4000x128) zeros2, View.ld_unit_zero (S := S128x128) zeros2]
  obtain ⟨e20, e21, e00, e01, e10, e11⟩ := idx_facts t
  have ht : t.val < 25 := t.isLt
  funext j
  obtain ⟨p, q, rfl⟩ : ∃ (p : Fin 4000) (q : Fin 128), j = ix2 p q := ⟨j 0, j 1, eq_ix2 j⟩
  have hp : p.val < 4000 := p.isLt
  show k0_pay1 (iblk0 V c 0 t) (iblk0 V c 1 t) (ix2 p q) = Gcn.lin (V c main_arg0) (V c main_arg2) (((cfg0.win 2).blk t).view.emb (ix2 p q))
  have hemb : ((cfg0.win 2).blk t).view.emb (ix2 p q) = ix2 (⟨4000 * t.val + p.val, by omega⟩ : Fin 100000) q := by
    funext a; apply Fin.ext
    match a with
    | ⟨0, _⟩ => show win0_2.index t (0 : Fin 2) * 4000 + 1 * p.val = 4000 * t.val + p.val; omega
    | ⟨1, _⟩ => show win0_2.index t (1 : Fin 2) * 128 + 1 * q.val = q.val; omega
  rw [hemb]
  refine pay_lin (V c main_arg0) (V c main_arg2) (iblk0 V c 0 t) (iblk0 V c 1 t) (fun p => ⟨4000 * t.val + p.val, by have := p.isLt; omega⟩) (fun p k => ?_) (fun k q => ?_) p q
  · show V c main_arg0 (((cfg0.win 0).blk t).view.emb (ix2 p k)) = _
    refine congrArg _ (funext fun a => Fin.ext ?_)
    have hp : p.val < 4000 := p.isLt
    match a with
    | ⟨0, _⟩ => show win0_0.index t (0 : Fin 2) * 4000 + 1 * p.val = 4000 * t.val + p.val; omega
    | ⟨1, _⟩ => show win0_0.index t (1 : Fin 2) * 128 + 1 * k.val = k.val; omega
  · show V c main_arg2 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v0).slice (win0_2.rect t)).set ↔ _
  rw [View.set_slice_whole, Rect.mem_set_unit]
  exact Iff.rfl

/-- Every entry of the array is written back by some point: row `r` lies in the block of point `r / 4000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hlt : (i 0).val / 4000 < 25 := by omega
  refine ⟨⟨(i 0).val / 4000, hlt⟩, flush0_2 _, ?_⟩
  rw [mem_blk]
  obtain ⟨e20, e21, -⟩ := idx_facts ⟨(i 0).val / 4000, hlt⟩
  have e20' : win0_2.index ⟨(i 0).val / 4000, hlt⟩ (0 : Fin 2) = (i 0).val / 4000 := e20
  intro a
  match a with
  | ⟨0, _⟩ => show win0_2.index ⟨(i 0).val / 4000, hlt⟩ (0 : Fin 2) * 4000 ≤ (i 0).val ∧ (i 0).val < win0_2.index ⟨(i 0).val / 4000, hlt⟩ (0 : Fin 2) * 4000 + 4000; omega
  | ⟨1, _⟩ => show win0_2.index ⟨(i 0).val / 4000, hlt⟩ (1 : Fin 2) * 128 ≤ (i 1).val ∧ (i 1).val < win0_2.index ⟨(i 0).val / 4000, hlt⟩ (1 : Fin 2) * 128 + 128; omega

/-- THE ARRAY after the first region, from any entry contents `V`: the matrix product of the two arrays the region reads. -/
theorem lin_array (c : Dev nD) :
    (dat0 (F := Ideal) V c).arrAt 2 cfg0.N = Gcn.lin (V c main_arg0) (V c main_arg2) :=
  (dat0 (F := Ideal) V c).arrAt_eq_of_cover 2 _ (fun t _ => flushed_eq V c t) cover

end Cert.KernelIdeal.LinValue

end
-- ==== Proof.LibColumn.lean ====
/-
  Column forms of the layout operations, read at an index written with the coordinate constructors:
  what a row reduction with `keepdims` needs. A vector `[a]` cast to a column `[a, 1]` reads, at `(i, u)`,
  the vector at `i` (the row-major position of `(i, u)` in `[a, 1]` is `i`); a column `[a, 1]` broadcast
  to `[a, b]` reads, at `(p, c)`, the column at row `p` (the unit axis contributes coordinate `0`).
-/
import Idealize.ShloMosaic.Lib.ValueLayout

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.EpiValue.lean ====
/- The second region's value: after its 25 points the result array holds the normalised, activated rows of the array it reads. -/
import proofs.«133593_j79422535238247_1_alg».proof.Proof.Gen.KernelIdeal.Frame
import proofs.«133593_j79422535238247_1_alg».proof.Proof.Spec
import proofs.«133593_j79422535238247_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EpiValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's arithmetic at one entry

The block of 4000 rows is read entry by entry: the layout operations move an index, the two lane sums become sums
over the 128 channels of a row, and what is left is the tail of the layer on that row. -/

/-- A per-channel vector, cast to one row and broadcast over the rows, reads at (p, q) the vector at q. -/
theorem row_bcast (v : Vec Ideal S128 .f32) (p : Fin 4000) (q : Fin 128) :
    broadcastTo S4000x128 (shapeCast S1x128 v shapeCasts_S128_S1x128) broadcasts_S1x128_S4000x128 (ix2 p q) = v (ix1 q) :=
  (broadcastTo_1b_ab_apply _ _ p q).trans (shapeCast_a_1a_apply v _ 0 q)

/-- A per-row vector, cast to a column and broadcast over the lanes, reads at (p, q) the vector at p. -/
theorem col_bcast (v : FVec Ideal S4000x1 .f32) (p : Fin 4000) (q : Fin 128) :
    broadcastTo S4000x128 v broadcasts_S4000x1_S4000x128 (ix2 p q) = v (ix2 p (0 : Fin 1)) :=
  Cert.LibColumn.broadcastTo_a1_ab_apply v _ p q

/-- A per-row vector cast to a column reads, at (p, u), the vector at p. -/
theorem col_cast (v : FVec Ideal S4000 .f32) (p : Fin 4000) (u : Fin 1) :
    shapeCast S4000x1 v shapeCasts_S4000_S4000x1 (ix2 p u) = v (ix1 p) :=
  Cert.LibColumn.shapeCast_a_a1_apply v _ p u

/-- The lane sum of a block at row p is the sum of that row's 128 entries. -/
theorem lane_sum (w : FVec Ideal S4000x128 .f32) (p : Fin 4000) :
    multiReduction (F := Ideal) .add [1] S4000 w 0x00000000#32 reduces_S4000x128_S4000 (.inl rfl) rfl (ix1 p)
      = ∑ k : Fin 128, w (ix2 p k) := by
  refine (Ideal.multiReduction_add_single w 0x00000000#32 reduces_S4000x128_S4000 (.inl rfl) rfl (ix1 p)).trans ?_
  refine Finset.sum_congr rfl fun k _ => congrArg w (funext fun a => Fin.ext ?_)
  match a with
  | ⟨0, _⟩ => rfl
  | ⟨1, _⟩ => rfl

/-- The activated block: the bias added along the rows, then the PReLU with the one slope. -/
def actB (x0 : Vec Ideal S4000x128 .f32) (x1 : Vec Ideal S128 .f32) (x2 : Vec Ideal S1 .f32) : FVec Ideal S4000x128 .f32 :=
  select
    (cmpf .oge
      (addf (shapeCast S4000x128 x0 shapeCasts_S4000x128_S4000x128)
        (broadcastTo S4000x128 (shapeCast S1x128 x1 shapeCasts_S128_S1x128) broadcasts_S1x128_S4000x128))
      (broadcast S4000x128 (Scalar.ofBits (F := Ideal) .f32 0x00000000#32)))
    (addf (shapeCast S4000x128 x0 shapeCasts_S4000x128_S4000x128)
      (broadcastTo S4000x128 (shapeCast S1x128 x1 shapeCasts_S128_S1x128) broadcasts_S1x128_S4000x128))
    (mulf (broadcast S4000x128 (extractAt ![0] x2 inpos_S1_p0))
      (addf (shapeCast S4000x128 x0 shapeCasts_S4000x128_S4000x128)
        (broadcastTo S4000x128 (shapeCast S1x128 x1 shapeCasts_S128_S1x128) broadcasts_S1x128_S4000x128)))

/-- The column of row means of a block: each row's lane sum divided by 128. -/
def meanCol (w : FVec Ideal S4000x128 .f32) : FVec Ideal S4000x1 .f32 :=
  divf (shapeCast S4000x1 (multiReduction (F := Ideal) .add [1] S4000 w 0x00000000#32 reduces_S4000x128_S4000 (.inl rfl) rfl) shapeCasts_S4000_S4000x1)
    (broadcast S4000x1 (Scalar.ofBits (F := Ideal) .f32 0x43000000#32))

/-- A block with each row's mean subtracted. -/
def devB (w : FVec Ideal S4000x128 .f32) : FVec Ideal S4000x128 .f32 :=
  subf w (broadcastTo S4000x128 (meanCol w) broadcasts_S4000x1_S4000x128)

/-- The body's payload is the normalisation, written over the three pieces above. -/
theorem pay_eq (x0 : Vec Ideal S4000x128 .f32) (x1 : Vec Ideal S128 .f32) (x2 : Vec Ideal S1 .f32) (x3 x4 : Vec Ideal S128 .f32) :
    k1_pay1 x0 x1 x2 x3 x4 =
      addf (mulf (mulf (devB (actB x0 x1 x2))
          (broadcastTo S4000x128 (rsqrt (addf (meanCol (mulf (devB (actB x0 x1 x2)) (devB (actB x0 x1 x2))))
            (broadcast S4000x1 (Scalar.ofBits (F := Ideal) .f32 0x3727C5AC#32)))) broadcasts_S4000x1_S4000x128))
          (broadcastTo S4000x128 (shapeCast S1x128 x3 shapeCasts_S128_S1x128) broadcasts_S1x128_S4000x128))
        (broadcastTo S4000x128 (shapeCast S1x128 x4 shapeCasts_S128_S1x128) broadcasts_S1x128_S4000x128) := rfl

/-- The one entry of the slope vector, extracted at position 0. -/
theorem slope_eq (x2 : Vec Ideal S1 .f32) : extractAt ![0] x2 inpos_S1_p0 = x2 (ix1 0) := by
  unfold extractAt
  refine congrArg x2 (funext fun a => Fin.ext ?_)
  match a with
  | ⟨0, _⟩ => rfl

/-- The activated block at (p, q) is the activation of row p at channel q. -/
theorem actB_apply (x0 : Vec Ideal S4000x128 .f32) (x1 : Vec Ideal S128 .f32) (x2 : Vec Ideal S1 .f32) (p : Fin 4000) (q : Fin 128) :
    actB x0 x1 x2 (ix2 p q) = Gcn.act (fun j => x0 (ix2 p j)) (fun j => x1 (ix1 j)) (x2 (ix1 0)) q := by
  unfold actB Gcn.act
  rw [select_apply, cmpf_apply, mulf_apply, addf_apply, broadcast_apply, broadcast_apply, shapeCast_self, row_bcast, slope_eq]
  rfl

/-- The mean column at (p, u) is the mean of row p. -/
theorem meanCol_apply (w : FVec Ideal S4000x128 .f32) (p : Fin 4000) (u : Fin 1) :
    meanCol w (ix2 p u) = Gcn.mean (fun j => w (ix2 p j)) := by
  unfold meanCol Gcn.mean
  rw [divf_apply, broadcast_apply, col_cast, lane_sum]
  rfl

/-- The deviation block at (p, q) is the entry minus its row's mean. -/
theorem devB_apply (w : FVec Ideal S4000x128 .f32) (p : Fin 4000) (q : Fin 128) :
    devB w (ix2 p q) = w (ix2 p q) - Gcn.mean (fun j => w (ix2 p j)) := by
  unfold devB
  rw [subf_apply, col_bcast, meanCol_apply]

/-- THE PAYLOAD AT AN INDEX: entry (p, q) of what the body stores is the normalised, activated row p of its first
    block at channel q. -/
theorem pay_apply (x0 : Vec Ideal S4000x128 .f32) (x1 : Vec Ideal S128 .f32) (x2 : Vec Ideal S1 .f32) (x3 x4 : Vec Ideal S128 .f32)
    (p : Fin 4000) (q : Fin 128) :
    k1_pay1 x0 x1 x2 x3 x4 (ix2 p q)
      = Gcn.normRow (Gcn.act (fun j => x0 (ix2 p j)) (fun j => x1 (ix1 j)) (x2 (ix1 0))) (fun j => x3 (ix1 j)) (fun j => x4 (ix1 j)) q := by
  rw [pay_eq, addf_apply, mulf_apply, mulf_apply, row_bcast, row_bcast, col_bcast, devB_apply]
  show (_ - _) * Ideal.rsqrt (meanCol (mulf (devB (actB x0 x1 x2)) (devB (actB x0 x1 x2))) (ix2 p 0) + Ideal.ofBits .f32 0x3727C5AC#32) * x3 (ix1 q) + x4 (ix1 q) = _
  rw [meanCol_apply]
  simp only [mulf_apply, devB_apply, actB_apply]
  rfl

/-! ## From the blocks to the array

Each of the 25 points reads rows 4000·t … 4000·t + 3999 of the array and the whole of the four small arrays, and writes
the same rows of the result; the 25 row blocks tile the result. -/

/-- The zero offsets of a whole-block access, rank 2 and rank 1. -/
theorem zero2 : (![0, 0] : Fin 2 → Nat) = fun _ => 0 := funext fun a => by fin_cases a <;> rfl
theorem zero1 : (![0] : Fin 1 → Nat) = fun _ => 0 := funext fun a => by fin_cases a <;> rfl

/-- The index maps, decided once over the 25 points: the window read by rows moves with the output window, the lane
    block is always block 0, and the four whole-array windows stay at block 0. -/
theorem index_facts : ∀ t : Fin cfg1.N,
    win1_0.index t (0 : Fin 2) = win1_5.index t (0 : Fin 2)
    ∧ win1_0.index t (1 : Fin 2) = 0
    ∧ win1_5.index t (1 : Fin 2) = 0
    ∧ win1_1.index t (0 : Fin 1) = 0
    ∧ win1_2.index t (0 : Fin 1) = 0
    ∧ win1_3.index t (0 : Fin 1) = 0
    ∧ win1_4.index t (0 : Fin 1) = 0
    ∧ win1_5.index t (0 : Fin 2) ≤ 24 :=
  (by decide +kernel : ∀ t : Fin grid1.N, _)

/-- Every one of the 25 row blocks is some point's. -/
theorem index_onto : ∀ q0 : Fin 25, ∃ t : Fin cfg1.N, win1_5.index t = ![q0.val, 0] :=
  (by decide +kernel : ∀ q0 : Fin 25, ∃ t : Fin grid1.N, win1_5.index t = ![q0.val, 0])

/-- Window 0's block at point t reads, at (p, q), the array it tiles at row (block index)·4000 + p, lane q. -/
theorem rows_blk_apply (c : Dev nD) (t : Fin cfg1.N) (p : Fin 4000) (q : Fin 128) (i : S100000x128.Idx)
    (h0 : (i 0).val = win1_5.index t (0 : Fin 2) * 4000 + p.val) (h1 : (i 1).val = q.val) :
    (iblk1 V c 0 t : Vec Ideal S4000x128 .f32) (ix2 p q) = V c main_v46 i := by
  obtain ⟨e0, e1, e2, e3, e4, e5, e6, e7⟩ := index_facts t
  show V c main_v46 (((cfg1.win 0).blk t).view.emb (ix2 p q)) = V c main_v46 i
  refine congrArg (V c main_v46) (funext fun a => Fin.ext ?_)
  match a with
  | ⟨0, _⟩ => show win1_0.index t (0 : Fin 2) * 4000 + 1 * p.val = (i 0).val; omega
  | ⟨1, _⟩ => show win1_0.index t (1 : Fin 2) * 128 + 1 * q.val = (i 1).val; omega

/-- Windows 1, 3, 4 hold the whole of their 128-entry arrays at every point: the bias, -/
theorem bias_blk_apply (c : Dev nD) (t : Fin cfg1.N) (q : Fin 128) :
    (iblk1 V c 1 t : Vec Ideal S128 .f32) (ix1 q) = V c main_arg3 (ix1 q) := by
  obtain ⟨e0, e1, e2, e3, e4, e5, e6, e7⟩ := index_facts t
  show V c main_arg3 (((cfg1.win 1).blk t).view.emb (ix1 q)) = V c main_arg3 (ix1 q)
  refine congrArg (V c main_arg3) (funext fun a => Fin.ext ?_)
  match a with
  | ⟨0, _⟩ => show win1_1.index t (0 : Fin 1) * 128 + 1 * q.val = q.val; omega

/-- the scale γ, -/
theorem gamma_blk_apply (c : Dev nD) (t : Fin cfg1.N) (q : Fin 128) :
    (iblk1 V c 3 t : Vec Ideal S128 .f32) (ix1 q) = V c main_arg5 (ix1 q) := by
  obtain ⟨e0, e1, e2, e3, e4, e5, e6, e7⟩ := index_facts t
  show V c main_arg5 (((cfg1.win 3).blk t).view.emb (ix1 q)) = V c main_arg5 (ix1 q)
  refine congrArg (V c main_arg5) (funext fun a => Fin.ext ?_)
  match a with
  | ⟨0, _⟩ => show win1_3.index t (0 : Fin 1) * 128 + 1 * q.val = q.val; omega

/-- and the shift β. -/
theorem beta_blk_apply (c : Dev nD) (t : Fin cfg1.N) (q : Fin 128) :
    (iblk1 V c 4 t : Vec Ideal S128 .f32) (ix1 q) = V c main_arg6 (ix1 q) := by
  obtain ⟨e0, e1, e2, e3, e4, e5, e6, e7⟩ := index_facts t
  show V c main_arg6 (((cfg1.win 4).blk t).view.emb (ix1 q)) = V c main_arg6 (ix1 q)
  refine congrArg (V c main_arg6) (funext fun a => Fin.ext ?_)
  match a with
  | ⟨0, _⟩ => show win1_4.index t (0 : Fin 1) * 128 + 1 * q.val = q.val; omega

/-- Window 2 holds the one slope at every point. -/
theorem slope_blk_apply (c : Dev nD) (t : Fin cfg1.N) (u : Fin 1) :
    (iblk1 V c 2 t : Vec Ideal S1 .f32) (ix1 u) = V c main_arg4 (ix1 u) := by
  obtain ⟨e0, e1, e2, e3, e4, e5, e6, e7⟩ := index_facts t
  show V c main_arg4 (((cfg1.win 2).blk t).view.emb (ix1 u)) = V c main_arg4 (ix1 u)
  refine congrArg (V c main_arg4) (funext fun a => Fin.ext ?_)
  match a with
  | ⟨0, _⟩ => show win1_2.index t (0 : Fin 1) * 1 + 1 * u.val = u.val; omega

/-- What point t's body stores at (p, q) is the tail of the layer at the array index `e` that entry (p, q) of block t
    lands on: row (block index)·4000 + p, channel q. -/
theorem stored_eq_epi (c : Dev nD) (t : Fin cfg1.N) (p : Fin 4000) (q : Fin 128) (e : S100000x128.Idx)
    (he0 : (e 0).val = win1_5.index t (0 : Fin 2) * 4000 + p.val) (he1 : (e 1).val = q.val) :
    k1_pay1 (iblk1 V c 0 t) (iblk1 V c 1 t) (iblk1 V c 2 t) (iblk1 V c 3 t) (iblk1 V c 4 t) (ix2 p q)
      = Gcn.epi (V c main_v46) (V c main_arg3) (V c main_arg4) (V c main_arg5) (V c main_arg6) e := by
  rw [pay_apply]
  have hq : e 1 = q := Fin.ext he1
  have hA : (fun j' : Fin 128 => (iblk1 V c 0 t : Vec Ideal S4000x128 .f32) (ix2 p j'))
      = fun j' => V c main_v46 (@ix2 100000 128 (e 0) j') := funext fun j' => rows_blk_apply V c t p j' _ he0 rfl
  have hB : (fun j' : Fin 128 => (iblk1 V c 1 t : Vec Ideal S128 .f32) (ix1 j')) = fun j' => V c main_arg3 (ix1 j') :=
    funext fun j' => bias_blk_apply V c t j'
  have hS : (iblk1 V c 2 t : Vec Ideal S1 .f32) (ix1 0) = V c main_arg4 (ix1 0) := slope_blk_apply V c t 0
  have hG : (fun j' : Fin 128 => (iblk1 V c 3 t : Vec Ideal S128 .f32) (ix1 j')) = fun j' => V c main_arg5 (ix1 j') :=
    funext fun j' => gamma_blk_apply V c t j'
  have hBt : (fun j' : Fin 128 => (iblk1 V c 4 t : Vec Ideal S128 .f32) (ix1 j')) = fun j' => V c main_arg6 (ix1 j') :=
    funext fun j' => beta_blk_apply V c t j'
  rw [hA, hB, hS, hG, hBt]
  unfold Gcn.epi
  rw [hq]

/-- WHAT POINT t WRITES BACK is block t of the tail of the layer on the arrays as the region finds them. -/
theorem flushed_eq_epi (c : Dev nD) (t : Fin cfg1.N) :
    (dat1 (F := Ideal) V c).flushed 5 t = ((cfg1.win 5).blk t).view.read (Elt Ideal)
      (Gcn.epi (V c main_v46) (V c main_arg3) (V c main_arg4) (V c main_arg5) (V c main_arg6)) := by
  show (cfg1.win 5).cut (grid1.coords t) ((dat1 V c).after 5 t) = _
  rw [after1_5]
  unfold out1_5
  rw [View.canon_unit_zero zero2]
  simp only [View.ld_unit_zero (S := S4000x128) zero2, View.ld_unit_zero (S := S128) zero1, View.ld_unit_zero (S := S1) zero1]
  funext j
  obtain ⟨p, q, rfl⟩ : ∃ (p : Fin 4000) (q : Fin 128), j = ix2 p q := ⟨j 0, j 1, eq_ix2 j⟩
  have hx : (cfg1.win 5).xinj (grid1.coords t) (ix2 p q) = ix2 p q := by
    funext a
    match a with
    | ⟨0, _⟩ => rfl
    | ⟨1, _⟩ => rfl
  show k1_pay1 (iblk1 V c 0 t) (iblk1 V c 1 t) (iblk1 V c 2 t) (iblk1 V c 3 t) (iblk1 V c 4 t) ((cfg1.win 5).xinj (grid1.coords t) (ix2 p q))
    = Gcn.epi (V c main_v46) (V c main_arg3) (V c main_arg4) (V c main_arg5) (V c main_arg6) (((cfg1.win 5).blk t).view.emb (ix2 p q))
  rw [hx]
  obtain ⟨e0, e1, e2, e3, e4, e5, e6, e7⟩ := index_facts t
  refine stored_eq_epi V c t p q _ ?_ ?_
  · show win1_5.index t (0 : Fin 2) * 4000 + 1 * p.val = _; omega
  · show win1_5.index t (1 : Fin 2) * 128 + 1 * q.val = _; omega

/-- An index of the array is in point t's block iff each coordinate is in the block's range on its axis. -/
theorem mem_block (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v47).slice (win1_5.rect t)).set ↔ _
  rw [View.set_slice_whole, Rect.mem_set_unit]
  exact Iff.rfl

/-- Every index of the array is in the block of the point that owns its row: row r is in block r / 4000. -/
theorem rows_covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := index_onto ⟨(i 0).val / 4000, by omega⟩
  have q0 : win1_5.index t (0 : Fin 2) = (i 0).val / 4000 := congrFun ht 0
  have q1 : win1_5.index t (1 : Fin 2) = 0 := congrFun ht 1
  refine ⟨t, flush1_5 t, ?_⟩
  rw [mem_block]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-- THE ARRAY after the second region, from any entry contents `V`: the tail of the layer on the array the region reads. -/
theorem epi_array (c : Dev nD) :
    (dat1 (F := Ideal) V c).arrAt 5 cfg1.N = Gcn.epi (V c main_v46) (V c main_arg3) (V c main_arg4) (V c main_arg5) (V c main_arg6) :=
  (dat1 V c).arrAt_eq_of_cover 5 _ (fun t _ => flushed_eq_epi V c t) rows_covered

end Cert.KernelIdeal.EpiValue

end
-- ==== Proof.Aggregate.lean ====
/- The aggregation over the edges as ONE function of the product array and the edge list.

   Both programs apply the same host operations to the product x = h · W and the edge list: self loops are appended, the
   in-degrees are counted by a scatter-add of ones, each edge is weighted by the inverse roots of its end points' degrees,
   the source rows of x are gathered, scaled, and scatter-added into the target rows. Nothing in this certificate needs
   to know more of it than that it is the same function on both sides, so it is named here once, over the reference's
   stage functions, and never opened. -/
import proofs.«133593_j79422535238247_1_alg».proof.Proof.RefRead

noncomputable section

namespace Cert.ReferenceIdeal.Agg

open Cert.ReferenceIdeal Cert.ReferenceIdeal.Gen Cert.ReferenceIdeal.ReadP
open Idealize.ShloMosaic Idealize.ShloMosaic.TcCoe Idealize.SL.Sem

variable {F : FTy → Type} [FloatOps F]

/-- The aggregated array as a function of the product array `y` and the edge list `e`: the scatter-add, into zeros at the
    target nodes, of the gathered source rows of `y` scaled by the edge weights. -/
def agg (y : (⟨S100000x128, .f32⟩ : BufTy).Contents (Elt F)) (e : (⟨S2x640000, .i32⟩ : BufTy).Contents (Elt F)) : (⟨S100000x128, .f32⟩ : BufTy).Contents (Elt F) :=
  Host.scatterAdd scatter_S100000x128_S740000x1_S740000x128_1_0_0_1 (val_main_v44 (F := F)) (val_main_v45 (F := F) e)
    (mulf (val_main_v42 (F := F) e) (Host.gather gather_S100000x128_S740000x1_S740000x128_1_0_n_n_0_1_1128 y (val_main_v40 (F := F) e)))

/-- The reference's aggregated array (stage 46) is `agg` of its product (stage 0) and the edge list. -/
theorem stage46_eq (x0 : (⟨S100000x128, .f32⟩ : BufTy).Contents (Elt F)) (x1 : (⟨S2x640000, .i32⟩ : BufTy).Contents (Elt F)) (x2 : (⟨S128x128, .f32⟩ : BufTy).Contents (Elt F)) :
    val_main_v46 (F := F) x0 x1 x2 = agg (val_main_v0 (F := F) x0 x2) x1 := by
  unfold val_main_v46 val_main_v43 val_main_v41 agg
  rfl

end Cert.ReferenceIdeal.Agg

end
-- ==== Proof.HostChain.lean ====
/- Between the two regions: what the second region finds in the aggregated array's buffer is the aggregation function of
   what the first region left in the product's buffer and of the edge list; and the small per-channel arguments reach the
   second region as launched. -/
import proofs.«133593_j79422535238247_1_alg».proof.Proof.Gen.KernelIdeal.Frame
import proofs.«133593_j79422535238247_1_alg».proof.Proof.Aggregate

set_option maxRecDepth 16384

noncomputable section

namespace Cert.KernelIdeal.HostChain

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

set_option maxHeartbeats 4000000 in
/-- The aggregated array at the second region's entry: the host operations between the regions, applied to the first
    region's exit contents, compose to the aggregation function of the product buffer and the edge list. -/
theorem entry_v46 (c : Dev nD) :
    V4 m ρ c main_v46 = Cert.ReferenceIdeal.Agg.agg (F := F) (W1 m ρ c (Proc.devRef .tc main_v0)) (W1 m ρ c (Proc.devRef .tc main_arg1)) := by
  show StableHlo.after hostOps1_2 (StableHlo.after hostOps1_1 (StableHlo.after hostOps1 (W1 m ρ c))) (Proc.devRef .tc main_v46) = _
  simp only [hostOps1, hostOps1_1, hostOps1_2]
  after_results_simp
  rfl

end Cert.KernelIdeal.HostChain

end
-- ==== Proof.KernelValue.lean ====
/- The kernel program's result as one function of its arguments: the tail of the layer applied to the aggregation of the
   matrix product. The second region leaves the tail of what it finds; what it finds is the aggregation of what the first
   region left; the first region leaves the product of the launch arrays; and every small argument reaches the second region
   as launched. -/
import proofs.«133593_j79422535238247_1_alg».proof.Proof.KernelRun
import proofs.«133593_j79422535238247_1_alg».proof.Proof.LinValue
import proofs.«133593_j79422535238247_1_alg».proof.Proof.EpiValue
import proofs.«133593_j79422535238247_1_alg».proof.Proof.HostChain

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The layer on core `c`'s launch arrays: epi (agg (h · W, edges), b, α, γ, β). -/
def result (c : Dev nD) : Buf (Elt Ideal) ((c.tc : Thread nD τ).loc main_v47) :=
  Gcn.epi (Cert.ReferenceIdeal.Agg.agg (F := Ideal) (Gcn.lin (m ((c.tc : Thread nD τ).loc main_arg0)) (m ((c.tc : Thread nD τ).loc main_arg2)))
      (m ((c.tc : Thread nD τ).loc main_arg1)))
    (m ((c.tc : Thread nD τ).loc main_arg3)) (m ((c.tc : Thread nD τ).loc main_arg4)) (m ((c.tc : Thread nD τ).loc main_arg5)) (m ((c.tc : Thread nD τ).loc main_arg6))

/-- Each per-channel argument is, at the second region's entry, what was launched: the region's exit contents at an input
    window's array are its entry contents, and the exit contents at an argument are the launch contents. -/
theorem entry_arg3 (c : Dev nD) : V4 m ρ c main_arg3 = m ((c.tc : Thread nD τ).loc main_arg3) :=
  ((W5_arr m ρ c 1).trans (((dat1 (V4 m ρ) c).arrAt_in 1 rfl _).trans (A_eq1 (V4 m ρ) c 1))).symm.trans (W5_main_arg3 m ρ c)
theorem entry_arg4 (c : Dev nD) : V4 m ρ c main_arg4 = m ((c.tc : Thread nD τ).loc main_arg4) :=
  ((W5_arr m ρ c 2).trans (((dat1 (V4 m ρ) c).arrAt_in 2 rfl _).trans (A_eq1 (V4 m ρ) c 2))).symm.trans (W5_main_arg4 m ρ c)
theorem entry_arg5 (c : Dev nD) : V4 m ρ c main_arg5 = m ((c.tc : Thread nD τ).loc main_arg5) :=
  ((W5_arr m ρ c 3).trans (((dat1 (V4 m ρ) c).arrAt_in 3 rfl _).trans (A_eq1 (V4 m ρ) c 3))).symm.trans (W5_main_arg5 m ρ c)
theorem entry_arg6 (c : Dev nD) : V4 m ρ c main_arg6 = m ((c.tc : Thread nD τ).loc main_arg6) :=
  ((W5_arr m ρ c 4).trans (((dat1 (V4 m ρ) c).arrAt_in 4 rfl _).trans (A_eq1 (V4 m ρ) c 4))).symm.trans (W5_main_arg6 m ρ c)

/-- The first region's exit contents at the product's buffer: the matrix product of the launch arrays. -/
theorem exit_v0 (c : Dev nD) :
    W1 m ρ c (Proc.devRef .tc main_v0) = Gcn.lin (m ((c.tc : Thread nD τ).loc main_arg0)) (m ((c.tc : Thread nD τ).loc main_arg2)) :=
  (W1_arr m ρ c 2).trans (Cert.KernelIdeal.LinValue.lin_array (V0 m ρ) c)

/-- The edge list is untouched by the first region. -/
theorem exit_arg1 (c : Dev nD) : W1 m ρ c (Proc.devRef .tc main_arg1) = m ((c.tc : Thread nD τ).loc main_arg1) :=
  W1_of_ne m ρ c main_arg1 (by decide)

/-- The last boundary's contents at the result buffer are the layer's function of the launch arrays. -/
theorem last_v47 (c : Dev nD) : W5 m ρ c (Proc.devRef .tc main_v47) = result m c := by
  refine (W5_arr m ρ c 5).trans ?_
  rw [Cert.KernelIdeal.EpiValue.epi_array (V4 m ρ) c, Cert.KernelIdeal.HostChain.entry_v46 m ρ c, exit_v0 m ρ c, exit_arg1 m ρ c,
    entry_arg3 m ρ c, entry_arg4 m ρ c, entry_arg5 m ρ c, entry_arg6 m ρ c]
  rfl

/-- The kernel program's run with its result read: the layer's function of the arguments, the arguments unchanged. -/
theorem run : θ_run defs (onTc (τ := τ) (main (F := Ideal))) ⟨m, fun _ => 0, ρ⟩ (fun r => ∀ c : Dev nD,
      r.2.mem ((c.tc : Thread nD τ).loc main_v47) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (last_v47 m ρ c), (h c).2⟩) (Cert.KernelIdeal.Run.run_named (F := Ideal) m ρ)

end Cert.KernelIdeal.Whole

end
-- ==== Proof.RefValue.lean ====
/- The reference program read at an index: its matrix product is the sum the specification names, and its tail after the
   aggregation (bias, PReLU, layer normalisation) is the specification's row-wise function of the aggregated array. -/
import proofs.«133593_j79422535238247_1_alg».proof.Proof.RefRead
import proofs.«133593_j79422535238247_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx Idealize.SL.Sem

/-- The reference's `dot_general` is the matrix product of the specification. -/
theorem dot_eq (x0 : (⟨S100000x128, .f32⟩ : BufTy).Contents (Elt Ideal)) (x2 : (⟨S128x128, .f32⟩ : BufTy).Contents (Elt Ideal)) :
    val_main_v0 (F := Ideal) x0 x2 = Gcn.lin x0 x2 := by
  funext i
  rw [val_main_v0_apply]
  unfold Gcn.lin
  refine Finset.sum_congr rfl fun k _ => ?_
  have el : lidx_main_v0 i k = ix2 (i 0) k := funext fun a => Fin.ext (by match a with | ⟨0, _⟩ => rfl | ⟨1, _⟩ => rfl)
  have er : ridx_main_v0 i k = ix2 k (i 1) := funext fun a => Fin.ext (by match a with | ⟨0, _⟩ => rfl | ⟨1, _⟩ => rfl)
  rw [el, er]
  rfl

/-- The reshape of the one-entry slope array to rank 0 reads its one entry. -/
theorem ref_slope_apply (x4 : (⟨S1, .f32⟩ : BufTy).Contents (Elt Ideal)) (j : S_.Idx) :
    val_main_v52 (F := Ideal) x4 j = x4 (ix1 0) := by
  unfold val_main_v52
  refine shapeCast_apply x4 shapeCasts_S1_S_ j (ix1 0) ?_
  rw [Shape.rowMajor_val_one]
  show (0 : Nat) = (Shape.rowMajorPi _ j).val
  rw [Shape.rowMajorPi_zero]

/-- Row p of the aggregated array (stage 46) after the bias and the PReLU, as the specification writes it. -/
abbrev refActRow (x0 : (⟨S100000x128, .f32⟩ : BufTy).Contents (Elt Ideal)) (x1 : (⟨S2x640000, .i32⟩ : BufTy).Contents (Elt Ideal)) (x2 : (⟨S128x128, .f32⟩ : BufTy).Contents (Elt Ideal))
    (x3 : (⟨S128, .f32⟩ : BufTy).Contents (Elt Ideal)) (x4 : (⟨S1, .f32⟩ : BufTy).Contents (Elt Ideal)) (p : Fin 100000) : Fin 128 → EReal :=
  Gcn.act (fun j => val_main_v46 (F := Ideal) x0 x1 x2 (ix2 p j)) (fun j => x3 (ix1 j)) (x4 (ix1 0))

section Stages

variable (x0 : (⟨S100000x128, .f32⟩ : BufTy).Contents (Elt Ideal)) (x1 : (⟨S2x640000, .i32⟩ : BufTy).Contents (Elt Ideal)) (x2 : (⟨S128x128, .f32⟩ : BufTy).Contents (Elt Ideal))
  (x3 : (⟨S128, .f32⟩ : BufTy).Contents (Elt Ideal)) (x4 : (⟨S1, .f32⟩ : BufTy).Contents (Elt Ideal))

/-- Stages 47 to 55 at (p, q): the bias is read at q, the slope at its one entry, and the select is the PReLU. -/
theorem ref_act_apply (p : Fin 100000) (q : Fin 128) :
    val_main_v55 (F := Ideal) x0 x1 x2 x3 x4 (ix2 p q) = refActRow x0 x1 x2 x3 x4 p q := by
  have hb : val_main_v48 (F := Ideal) x3 (ix2 p q) = x3 (ix1 q) := by
    rw [val_main_v48_apply, val_main_v47_apply]
    exact congrArg x3 (funext fun a => Fin.ext (by match a with | ⟨0, _⟩ => rfl))
  rw [val_main_v55_apply, val_main_v51_apply, val_main_v54_apply, val_main_v49_apply, val_main_v50_apply,
    val_main_cst_10_apply, val_main_v53_apply, ref_slope_apply, hb]
  rfl

/-- Stages 56 to 59 at row p: the sum over the row from 0, divided by 128, is the mean of the activated row. -/
theorem ref_mean_apply (p : Fin 100000) :
    val_main_v59 (F := Ideal) x0 x1 x2 x3 x4 (ix2 p (0 : Fin 1)) = Gcn.mean (refActRow x0 x1 x2 x3 x4 p) := by
  rw [val_main_v59_apply, val_main_v57_apply, val_main_v58_apply, val_main_cst_12_apply, val_main_v56_apply,
    val_main_cst_11_apply]
  simp only [Ideal.ofBits_def, Ideal.hostDivf_def, Ideal.ofBits_zero_f32, zero_add]
  show Ideal.div _ _ = Ideal.div _ _
  refine congrArg (fun s => Ideal.div s (Ideal.ofBits .f32 0x43000000#32)) (Finset.sum_congr rfl fun k _ => ?_)
  have hk : idx_main_v56 (idx_main_v57 (ix2 p (0 : Fin 1))) k = ix2 p k :=
    funext fun a => Fin.ext (by match a with | ⟨0, _⟩ => rfl | ⟨1, _⟩ => rfl)
  rw [hk, ref_act_apply]

/-- Stages 60 and 61 at (p, q): the activated entry less its row's mean. -/
theorem ref_dev_apply (p : Fin 100000) (q : Fin 128) :
    val_main_v61 (F := Ideal) x0 x1 x2 x3 x4 (ix2 p q)
      = refActRow x0 x1 x2 x3 x4 p q - Gcn.mean (refActRow x0 x1 x2 x3 x4 p) := by
  have hi : idx_main_v60 (ix2 p q) = ix2 p (0 : Fin 1) :=
    funext fun a => Fin.ext (by match a with | ⟨0, _⟩ => rfl | ⟨1, _⟩ => rfl)
  rw [val_main_v61_apply, val_main_v60_apply, hi, ref_mean_apply, ref_act_apply]
  rfl

/-- Stages 67 and 68 at (p, q): the same deviation, computed a second time. -/
theorem ref_dev2_apply (p : Fin 100000) (q : Fin 128) :
    val_main_v68 (F := Ideal) x0 x1 x2 x3 x4 (ix2 p q)
      = refActRow x0 x1 x2 x3 x4 p q - Gcn.mean (refActRow x0 x1 x2 x3 x4 p) := by
  have hi : idx_main_v67 (ix2 p q) = ix2 p (0 : Fin 1) :=
    funext fun a => Fin.ext (by match a with | ⟨0, _⟩ => rfl | ⟨1, _⟩ => rfl)
  rw [val_main_v68_apply, val_main_v67_apply, hi, ref_mean_apply, ref_act_apply]
  rfl

/-- Stages 62 to 66 at row p: the mean of the squared deviations of the activated row. -/
theorem ref_var_apply (p : Fin 100000) :
    val_main_v66 (F := Ideal) x0 x1 x2 x3 x4 (ix2 p (0 : Fin 1))
      = Gcn.mean (fun j => (refActRow x0 x1 x2 x3 x4 p j - Gcn.mean (refActRow x0 x1 x2 x3 x4 p))
          * (refActRow x0 x1 x2 x3 x4 p j - Gcn.mean (refActRow x0 x1 x2 x3 x4 p))) := by
  rw [val_main_v66_apply, val_main_v64_apply, val_main_v65_apply, val_main_cst_14_apply, val_main_v63_apply,
    val_main_cst_13_apply]
  simp only [Ideal.ofBits_def, Ideal.hostDivf_def, Ideal.ofBits_zero_f32, zero_add]
  show Ideal.div _ _ = Ideal.div _ _
  refine congrArg (fun s => Ideal.div s (Ideal.ofBits .f32 0x43000000#32)) (Finset.sum_congr rfl fun k _ => ?_)
  have hk : idx_main_v63 (idx_main_v64 (ix2 p (0 : Fin 1))) k = ix2 p k :=
    funext fun a => Fin.ext (by match a with | ⟨0, _⟩ => rfl | ⟨1, _⟩ => rfl)
  rw [hk, val_main_v62_apply, ref_dev_apply]
  rfl

end Stages

/-- The reference's last stage is the specification's tail applied to its aggregated array (stage 46). -/
theorem tail_eq (x0 : (⟨S100000x128, .f32⟩ : BufTy).Contents (Elt Ideal)) (x1 : (⟨S2x640000, .i32⟩ : BufTy).Contents (Elt Ideal)) (x2 : (⟨S128x128, .f32⟩ : BufTy).Contents (Elt Ideal))
    (x3 : (⟨S128, .f32⟩ : BufTy).Contents (Elt Ideal)) (x4 : (⟨S1, .f32⟩ : BufTy).Contents (Elt Ideal)) (x5 x6 : (⟨S128, .f32⟩ : BufTy).Contents (Elt Ideal)) :
    val_main_v79 (F := Ideal) x0 x1 x2 x3 x4 x5 x6 = Gcn.epi (val_main_v46 (F := Ideal) x0 x1 x2) x3 x4 x5 x6 := by
  funext i
  obtain ⟨p, q, rfl⟩ : ∃ (p : Fin 100000) (q : Fin 128), i = ix2 p q := ⟨i 0, i 1, eq_ix2 i⟩
  have h72 : idx_main_v72 (ix2 p q) = ix2 p (0 : Fin 1) :=
    funext fun a => Fin.ext (by match a with | ⟨0, _⟩ => rfl | ⟨1, _⟩ => rfl)
  have h5 : idx_main_v74 (idx_main_v75 (ix2 p q)) = ix1 q :=
    funext fun a => Fin.ext (by match a with | ⟨0, _⟩ => rfl)
  have h6 : idx_main_v77 (idx_main_v78 (ix2 p q)) = ix1 q :=
    funext fun a => Fin.ext (by match a with | ⟨0, _⟩ => rfl)
  rw [val_main_v79_apply, val_main_v76_apply, val_main_v73_apply, val_main_v72_apply, h72, val_main_v71_apply,
    val_main_v70_apply, val_main_v69_apply, val_main_cst_15_apply, ref_var_apply, ref_dev2_apply, val_main_v75_apply,
    val_main_v74_apply, h5, val_main_v78_apply, val_main_v77_apply, h6]
  rfl

end Cert.ReferenceIdeal.RefValue

end
-- ==== Proof.RefWhole.lean ====
/- The reference program's result as the same function of its arguments: its last stage is the tail of the layer applied to
   the aggregation of its matrix product. -/
import proofs.«133593_j79422535238247_1_alg».proof.Proof.RefValue
import proofs.«133593_j79422535238247_1_alg».proof.Proof.Aggregate

noncomputable section

namespace Cert.ReferenceIdeal.Whole

open Cert.ReferenceIdeal Cert.ReferenceIdeal.Gen Cert.ReferenceIdeal.ReadP
open Idealize.ShloMosaic Idealize.ShloMosaic.TcCoe Idealize.SL.Sem

/-- The reference's last stage: epi (agg (h · W, edges), b, α, γ, β). -/
theorem stage79_eq (x0 : (⟨S100000x128, .f32⟩ : BufTy).Contents (Elt Ideal)) (x1 : (⟨S2x640000, .i32⟩ : BufTy).Contents (Elt Ideal)) (x2 : (⟨S128x128, .f32⟩ : BufTy).Contents (Elt Ideal))
    (x3 : (⟨S128, .f32⟩ : BufTy).Contents (Elt Ideal)) (x4 : (⟨S1, .f32⟩ : BufTy).Contents (Elt Ideal)) (x5 x6 : (⟨S128, .f32⟩ : BufTy).Contents (Elt Ideal)) :
    val_main_v79 (F := Ideal) x0 x1 x2 x3 x4 x5 x6 = Gcn.epi (Cert.ReferenceIdeal.Agg.agg (F := Ideal) (Gcn.lin x0 x2) x1) x3 x4 x5 x6 := by
  rw [Cert.ReferenceIdeal.RefValue.tail_eq, Cert.ReferenceIdeal.Agg.stage46_eq, Cert.ReferenceIdeal.RefValue.dot_eq]

end Cert.ReferenceIdeal.Whole

end
-- ==== Proof.lean ====
/- One graph-convolution layer, a PReLU and a layer normalisation, as a Pallas program against its jnp reference, over the
   extended reals.

   Both programs compute  epi (agg (h · W, edges), b, α, γ, β):
   * h · W. The kernel program tiles the rows in 25 blocks of 4000 and multiplies each block by the whole of W after a cast
     to bf16, which is the identity on the extended reals, into a zero accumulator; the reference takes one dot_general. Entry
     (r, q) of either is ∑ₖ h[r, k] · W[k, q].
   * agg, the aggregation over the edges with self loops and symmetric degree normalisation, is the same sequence of host
     operations in both programs, applied to the product and the edge list. It is one function here and is never opened.
   * epi. Entry (r, q) depends on row r of the aggregated array only: add the bias, apply the PReLU, subtract the row's mean,
     multiply by the inverse root of the mean squared deviation plus ε, scale and shift. The kernel program does this on blocks
     of 4000 rows with lane sums; the reference on the whole array with host sums from the initial value zero. The same
     literals 128 and ε stand on both sides, so they are never evaluated; the only law used is 0 + s = s.
   No step needs finiteness of the inputs: the two sides are the same expression of the same sums.

   The frames of the two kernel programs are the generated ones; the reference's frame is its run with the result dropped;
   the idealization rewrote nothing, so `preserves` is trivial. -/
import proofs.«133593_j79422535238247_1_alg».proof.Defs
import proofs.«133593_j79422535238247_1_alg».proof.Proof.Gen.Kernel
import proofs.«133593_j79422535238247_1_alg».proof.Proof.Gen.Kernel.Skeleton
import proofs.«133593_j79422535238247_1_alg».proof.Proof.Gen.Kernel.Launch
import proofs.«133593_j79422535238247_1_alg».proof.Proof.Gen.Kernel.Points
import proofs.«133593_j79422535238247_1_alg».proof.Proof.Gen.Kernel.Frame
import proofs.«133593_j79422535238247_1_alg».proof.Proof.Gen.KernelIdeal
import proofs.«133593_j79422535238247_1_alg».proof.Proof.Gen.KernelIdeal.Skeleton
import proofs.«133593_j79422535238247_1_alg».proof.Proof.Gen.KernelIdeal.Launch
import proofs.«133593_j79422535238247_1_alg».proof.Proof.Gen.KernelIdeal.Points
import proofs.«133593_j79422535238247_1_alg».proof.Proof.Gen.KernelIdeal.Frame
import proofs.«133593_j79422535238247_1_alg».proof.Proof.Gen.ReferenceIdeal
import proofs.«133593_j79422535238247_1_alg».proof.Proof.Gen.Pre_finite_inputs
import proofs.«133593_j79422535238247_1_alg».proof.Proof.KernelValue
import proofs.«133593_j79422535238247_1_alg».proof.Proof.RefRun
import proofs.«133593_j79422535238247_1_alg».proof.Proof.RefWhole
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments both idealized programs end with the layer's function of those arguments in
    their result buffers: the kernel program by its two regions' values and the aggregation between them, the reference by
    its stages. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Whole.stage79_eq, (hagree c).1, (hagree c).2.1, (hagree c).2.2.1, (hagree c).2.2.2.1,
    (hagree c).2.2.2.2.1, (hagree c).2.2.2.2.2.1, (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
